-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8x1024x128 : Shape := ⟨3, ![8, 1024, 128]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8x1024x128 : S_.BroadcastsInDim S8x1024x128 (![] : Fin 0 → Fin S8x1024x128.rank)
  reducesTo_S8x1024x128_S_d0_1_2 : S8x1024x128.ReducesTo [0, 1, 2] S_

variable [Facts]

def fn {F : FTy → Type} [FloatOps F] (main_arg0 : FVec F S4096x8192 .f32) (main_arg1 : FVec F S8x1024x128 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8x1024x128 .f32 := Host.absf main_arg1
  let main_cst_0 : FVec F S_ .f32 := constant S_ .f32 0x7F800000#32
  let main_v5 : FVec F S8x1024x128 .f32 := broadcastInDim S8x1024x128 ![] bcast_S_S8x1024x128 main_cst_0
  let main_v6 : IVec S8x1024x128 1 := cmpf .olt main_v4 main_v5
  let main_c_1 : IVec S_ 1 := constantI S_ 1 1#1
  let main_v7 : IVec S_ 1 := (fun x v => Host.reduce IntOp.andi x v reducesTo_S8x1024x128_S_d0_1_2 h_S_) main_v6 main_c_1
  let main_v8 : IVec S_ 1 := andi main_v3 main_v7
  main_v8
-- ==== Kernel.lean ====
abbrev S4096x8192 : Shape := ⟨2, ![4096, 8192]⟩
abbrev S8x1024x128 : Shape := ⟨3, ![8, 1024, 128]⟩
abbrev S4096x1024 : Shape := ⟨2, ![4096, 1024]⟩
abbrev S512x8192 : Shape := ⟨2, ![512, 8192]⟩
abbrev S512x1024 : Shape := ⟨2, ![512, 1024]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S8x1024x128, .f32⟩
  | .hbm, ⟨2, _⟩ => ⟨S4096x1024, .f32⟩
  | .local _ .vmem, ⟨0, _⟩ => ⟨S512x8192, .f32⟩
  | .local _ .vmem, ⟨1, _⟩ => ⟨S512x8192, .f32⟩
  | .local _ .vmem, ⟨2, _⟩ => ⟨S8x1024x128, .f32⟩
  | .local _ .vmem, ⟨3, _⟩ => ⟨S512x1024, .f32⟩
  | .local _ .vmem, ⟨4, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x8192_S512x1024_0_0 : ∀ a, (![0, 0] : Fin 2 → Nat) a + S512x1024.size a ≤ S512x8192.size a
  h_S512x1024 : 0 < S512x1024.numel
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  inb_S512x1024_S512x128_0_0 : ∀ a, (![0, 0] : Fin 2 → Nat) a + S512x128.size a ≤ S512x1024.size a
  h_S512x128 : 0 < S512x128.numel
  inb_S512x8192_S512x1024_0_1024 : ∀ a, (![0, 1024] : Fin 2 → Nat) a + S512x1024.size a ≤ S512x8192.size a
  inb_S8x1024x128_S1x1024x128_1_0_0 : ∀ a, (![1, 0, 0] : Fin 3 → Nat) a + S1x1024x128.size a ≤ S8x1024x128.size a
  inb_S512x1024_S512x128_0_128 : ∀ a, (![0, 128] : Fin 2 → Nat) a + S512x128.size a ≤ S512x1024.size a
  inb_S512x8192_S512x1024_0_2048 : ∀ a, (![0, 2048] : Fin 2 → Nat) a + S512x1024.size a ≤ S512x8192.size a
  inb_S8x1024x128_S1x1024x128_2_0_0 : ∀ a, (![2, 0, 0] : Fin 3 → Nat) a + S1x1024x128.size a ≤ S8x1024x128.size a
  inb_S512x1024_S512x128_0_256 : ∀ a, (![0, 256] : Fin 2 → Nat) a + S512x128.size a ≤ S512x1024.size a
  inb_S512x8192_S512x1024_0_3072 : ∀ a, (![0, 3072] : Fin 2 → Nat) a + S512x1024.size a ≤ S512x8192.size a
  inb_S8x1024x128_S1x1024x128_3_0_0 : ∀ a, (![3, 0, 0] : Fin 3 → Nat) a + S1x1024x128.size a ≤ S8x1024x128.size a
  inb_S512x1024_S512x128_0_384 : ∀ a, (![0, 384] : Fin 2 → Nat) a + S512x128.size a ≤ S512x1024.size a
  inb_S512x8192_S512x1024_0_4096 : ∀ a, (![0, 4096] : Fin 2 → Nat) a + S512x1024.size a ≤ S512x8192.size a
  inb_S8x1024x128_S1x1024x128_4_0_0 : ∀ a, (![4, 0, 0] : Fin 3 → Nat) a + S1x1024x128.size a ≤ S8x1024x128.size a
  inb_S512x1024_S512x128_0_512 : ∀ a, (![0, 512] : Fin 2 → Nat) a + S512x128.size a ≤ S512x1024.size a
  inb_S512x8192_S512x1024_0_5120 : ∀ a, (![0, 5120] : Fin 2 → Nat) a + S512x1024.size a ≤ S512x8192.size a
  inb_S8x1024x128_S1x1024x128_5_0_0 : ∀ a, (![5, 0, 0] : Fin 3 → Nat) a + S1x1024x128.size a ≤ S8x1024x128.size a
  inb_S512x1024_S512x128_0_640 : ∀ a, (![0, 640] : Fin 2 → Nat) a + S512x128.size a ≤ S512x1024.size a
  inb_S512x8192_S512x1024_0_6144 : ∀ a, (![0, 6144] : Fin 2 → Nat) a + S512x1024.size a ≤ S512x8192.size a
  inb_S8x1024x128_S1x1024x128_6_0_0 : ∀ a, (![6, 0, 0] : Fin 3 → Nat) a + S1x1024x128.size a ≤ S8x1024x128.size a
  inb_S512x1024_S512x128_0_768 : ∀ a, (![0, 768] : Fin 2 → Nat) a + S512x128.size a ≤ S512x1024.size a
  inb_S512x8192_S512x1024_0_7168 : ∀ a, (![0, 7168] : Fin 2 → Nat) a + S512x1024.size a ≤ S512x8192.size a
  inb_S8x1024x128_S1x1024x128_7_0_0 : ∀ a, (![7, 0, 0] : Fin 3 → Nat) a + S1x1024x128.size a ≤ S8x1024x128.size a
  inb_S512x1024_S512x128_0_896 : ∀ a, (![0, 896] : Fin 2 → Nat) a + S512x128.size a ≤ S512x1024.size a
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S4096x8192.size a
  hwx0_0 : ∀ i : grid0.Coords, EltTy.bits .f32 = 32 ∨ (Rect.block (s := S4096x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x128.size a ≤ S8x1024x128.size a
  hwx0_1 : ∀ i : grid0.Coords, EltTy.bits .f32 = 32 ∨ (Rect.block (s := S8x1024x128) S8x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8x1024x128 : Shape := ⟨3, ![8, 1024, 128]⟩
abbrev S4096x8x1024 : Shape := ⟨3, ![4096, 8, 1024]⟩
abbrev S4096x1x1024 : Shape := ⟨3, ![4096, 1, 1024]⟩
abbrev S4096x1024 : Shape := ⟨2, ![4096, 1024]⟩
abbrev S1x1024x128 : Shape := ⟨3, ![1, 1024, 128]⟩
abbrev S1024x128 : Shape := ⟨2, ![1024, 128]⟩
abbrev S4096x128 : Shape := ⟨2, ![4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8x1024x128, .f32⟩
  | .hbm, ⟨2, _⟩ => ⟨S4096x8x1024, .f32⟩
  | .hbm, ⟨3, _⟩ => ⟨S4096x1x1024, .f32⟩
  | .hbm, ⟨4, _⟩ => ⟨S4096x1024, .f32⟩
  | .hbm, ⟨5, _⟩ => ⟨S1x1024x128, .f32⟩
  | .hbm, ⟨6, _⟩ => ⟨S1024x128, .f32⟩
  | .hbm, ⟨7, _⟩ => ⟨S4096x128, .f32⟩
  | .hbm, ⟨8, _⟩ => ⟨S4096x1x1024, .f32⟩
  | .hbm, ⟨9, _⟩ => ⟨S4096x1024, .f32⟩
  | .hbm, ⟨10, _⟩ => ⟨S1x1024x128, .f32⟩
  | .hbm, ⟨11, _⟩ => ⟨S1024x128, .f32⟩
  | .hbm, ⟨12, _⟩ => ⟨S4096x128, .f32⟩
  | .hbm, ⟨13, _⟩ => ⟨S4096x1x1024, .f32⟩
  | .hbm, ⟨14, _⟩ => ⟨S4096x1024, .f32⟩
  | .hbm, ⟨15, _⟩ => ⟨S1x1024x128, .f32⟩
  | .hbm, ⟨16, _⟩ => ⟨S1024x128, .f32⟩
  | .hbm, ⟨17, _⟩ => ⟨S4096x128, .f32⟩
  | .hbm, ⟨18, _⟩ => ⟨S4096x1x1024, .f32⟩
  | .hbm, ⟨19, _⟩ => ⟨S4096x1024, .f32⟩
  | .hbm, ⟨20, _⟩ => ⟨S1x1024x128, .f32⟩
  | .hbm, ⟨21, _⟩ => ⟨S1024x128, .f32⟩
  | .hbm, ⟨22, _⟩ => ⟨S4096x128, .f32⟩
  | .hbm, ⟨23, _⟩ => ⟨S4096x1x1024, .f32⟩
  | .hbm, ⟨24, _⟩ => ⟨S4096x1024, .f32⟩
  | .hbm, ⟨25, _⟩ => ⟨S1x1024x128, .f32⟩
  | .hbm, ⟨26, _⟩ => ⟨S1024x128, .f32⟩
  | .hbm, ⟨27, _⟩ => ⟨S4096x128, .f32⟩
  | .hbm, ⟨28, _⟩ => ⟨S4096x1x1024, .f32⟩
  | .hbm, ⟨29, _⟩ => ⟨S4096x1024, .f32⟩
  | .hbm, ⟨30, _⟩ => ⟨S1x1024x128, .f32⟩
  | .hbm, ⟨31, _⟩ => ⟨S1024x128, .f32⟩
  | .hbm, ⟨32, _⟩ => ⟨S4096x128, .f32⟩
  | .hbm, ⟨33, _⟩ => ⟨S4096x1x1024, .f32⟩
  | .hbm, ⟨34, _⟩ => ⟨S4096x1024, .f32⟩
  | .hbm, ⟨35, _⟩ => ⟨S1x1024x128, .f32⟩
  | .hbm, ⟨36, _⟩ => ⟨S1024x128, .f32⟩
  | .hbm, ⟨37, _⟩ => ⟨S4096x128, .f32⟩
  | .hbm, ⟨38, _⟩ => ⟨S4096x1x1024, .f32⟩
  | .hbm, ⟨39, _⟩ => ⟨S4096x1024, .f32⟩
  | .hbm, ⟨40, _⟩ => ⟨S1x1024x128, .f32⟩
  | .hbm, ⟨41, _⟩ => ⟨S1024x128, .f32⟩
  | .hbm, ⟨42, _⟩ => ⟨S4096x128, .f32⟩
  | .hbm, ⟨43, _⟩ => ⟨S4096x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩

abbrev nD : Nat := 1
abbrev τ : Topo := Topo.v7x

variable {F : FTy → Type} [FloatOps F]

class Facts₀ : Prop where
  shapeCasts_S4096x8192_S4096x8x1024 : S4096x8192.ShapeCasts S4096x8x1024
  slices_S4096x8x1024_S4096x1x1024_0_0_0 : S4096x8x1024.Slices ![0, 0, 0] S4096x1x1024
  shapeCasts_S4096x1x1024_S4096x1024 : S4096x1x1024.ShapeCasts S4096x1024
  slices_S8x1024x128_S1x1024x128_0_0_0 : S8x1024x128.Slices ![0, 0, 0] S1x1024x128
  shapeCasts_S1x1024x128_S1024x128 : S1x1024x128.ShapeCasts S1024x128
  slices_S4096x8x1024_S4096x1x1024_0_1_0 : S4096x8x1024.Slices ![0, 1, 0] S4096x1x1024
  slices_S8x1024x128_S1x1024x128_1_0_0 : S8x1024x128.Slices ![1, 0, 0] S1x1024x128
  slices_S4096x8x1024_S4096x1x1024_0_2_0 : S4096x8x1024.Slices ![0, 2, 0] S4096x1x1024
  slices_S8x1024x128_S1x1024x128_2_0_0 : S8x1024x128.Slices ![2, 0, 0] S1x1024x128
  slices_S4096x8x1024_S4096x1x1024_0_3_0 : S4096x8x1024.Slices ![0, 3, 0] S4096x1x1024
  slices_S8x1024x128_S1x1024x128_3_0_0 : S8x1024x128.Slices ![3, 0, 0] S1x1024x128
  slices_S4096x8x1024_S4096x1x1024_0_4_0 : S4096x8x1024.Slices ![0, 4, 0] S4096x1x1024
  slices_S8x1024x128_S1x1024x128_4_0_0 : S8x1024x128.Slices ![4, 0, 0] S1x1024x128
  slices_S4096x8x1024_S4096x1x1024_0_5_0 : S4096x8x1024.Slices ![0, 5, 0] S4096x1x1024
  slices_S8x1024x128_S1x1024x128_5_0_0 : S8x1024x128.Slices ![5, 0, 0] S1x1024x128
  slices_S4096x8x1024_S4096x1x1024_0_6_0 : S4096x8x1024.Slices ![0, 6, 0] S4096x1x1024
  slices_S8x1024x128_S1x1024x128_6_0_0 : S8x1024x128.Slices ![6, 0, 0] S1x1024x128
  slices_S4096x8x1024_S4096x1x1024_0_7_0 : S4096x8x1024.Slices ![0, 7, 0] S4096x1x1024
  slices_S8x1024x128_S1x1024x128_7_0_0 : S8x1024x128.Slices ![7, 0, 0] S1x1024x128
  concatenates_S4096x128_S4096x128_S4096x128_S4096x128_S4096x128_S4096x128_S4096x128_S4096x128_S4096x1024_d1 : Shape.Concatenates [S4096x128, S4096x128, S4096x128, S4096x128, S4096x128, S4096x128, S4096x128, S4096x128] S4096x1024 1
  dot_S4096x1024_S1024x128_S4096x128_1_0_0_1_n_n_wf : DotDims.WF S4096x1024 S1024x128 S4096x128 [1] [0] [0] [1] [] []

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf

class Facts : Prop extends Facts₀ where

variable [Facts]
-- ==== Proof.Spec.lean ====
/-
  The value both programs compute, as one function of the two argument arrays.

  The input `x` is a [rows, 8192] matrix read as 8 groups of 1024 consecutive columns; the weight `w` is a
  stack of 8 matrices [1024, 128]. Column `c` of the result belongs to group `c / 128` and is lane `c % 128`
  of that group's product: entry `(r, c)` is the sum over `k < 1024` of `x (r, (c / 128) * 1024 + k)` times
  `w (c / 128, k, c % 128)`, on the extended reals. The number of rows is a parameter, so that the same
  function describes the whole [4096, 8192] array and one [512, 8192] row block of it; `groupedProduct_rows`
  says that a row block of the whole array's result is the result of the row block.
-/
import Idealize.ShloMosaic.PureOps.Ideal
import Idealize.ShloMosaic.Lib.ValueIdx

noncomputable section

open scoped BigOperators

namespace Cert.GroupedProduct

open Idealize.ShloMosaic Idealize.ShloMosaic.ValueIdx

/-- The group a result column belongs to. -/
abbrev grp (c : Fin 1024) : Fin 8 := ⟨c.val / 128, by have := c.isLt; omega⟩

/-- The column's lane inside its group's product. -/
abbrev lane (c : Fin 1024) : Fin 128 := ⟨c.val % 128, Nat.mod_lt _ (by norm_num)⟩

/-- The input column that group `g` reads at contraction index `k`. -/
abbrev col (g : Fin 8) (k : Fin 1024) : Fin 8192 := ⟨g.val * 1024 + k.val, by have := g.isLt; have := k.isLt; omega⟩

/-- Entry `(r, c)` of the grouped product: `∑ k, x (r, col (grp c) k) * w (grp c, k, lane c)`. -/
def groupedProduct {R : ℕ} (x : (⟨2, ![R, 8192]⟩ : Shape).Idx → EReal) (w : (⟨3, ![8, 1024, 128]⟩ : Shape).Idx → EReal) :
    (⟨2, ![R, 1024]⟩ : Shape).Idx → EReal :=
  fun i => ∑ k : Fin 1024, x (ix2 (i 0) (col (grp (i 1)) k)) * w (ix3 (grp (i 1)) k (lane (i 1)))

/-- One group's product at an entry, for a group given by its number: what each of the 8 matrix products is. -/
def groupEntry {R : ℕ} (x : (⟨2, ![R, 8192]⟩ : Shape).Idx → EReal) (w : (⟨3, ![8, 1024, 128]⟩ : Shape).Idx → EReal)
    (g : Fin 8) : (⟨2, ![R, 128]⟩ : Shape).Idx → EReal :=
  fun i => ∑ k : Fin 1024, x (ix2 (i 0) (col g k)) * w (ix3 g k (i 1))

/-- The grouped product at a column is its group's product at the column's lane. -/
theorem groupedProduct_eq_groupEntry {R : ℕ} (x : (⟨2, ![R, 8192]⟩ : Shape).Idx → EReal)
    (w : (⟨3, ![8, 1024, 128]⟩ : Shape).Idx → EReal) (i : (⟨2, ![R, 1024]⟩ : Shape).Idx) :
    groupedProduct x w i = groupEntry x w (grp (i 1)) (ix2 (i 0) (lane (i 1))) := rfl

/-- Rows of the result depend only on the same rows of the input: if the rows of `b` are rows `ρ r` of `x`, then
    row `r` of `b`'s result is row `ρ r` of `x`'s. -/
theorem groupedProduct_rows {R R' : ℕ} (x : (⟨2, ![R', 8192]⟩ : Shape).Idx → EReal)
    (b : (⟨2, ![R, 8192]⟩ : Shape).Idx → EReal) (w : (⟨3, ![8, 1024, 128]⟩ : Shape).Idx → EReal) (ρ : Fin R → Fin R')
    (hb : ∀ (r : Fin R) (c : Fin 8192), b (ix2 r c) = x (ix2 (ρ r) c)) (r : Fin R) (c : Fin 1024) :
    groupedProduct b w (ix2 r c) = groupedProduct x w (ix2 (ρ r) c) := by
  show ∑ k : Fin 1024, b (ix2 r (col (grp c) k)) * w (ix3 (grp c) k (lane c))
    = ∑ k : Fin 1024, x (ix2 (ρ r) (col (grp c) k)) * w (ix3 (grp c) k (lane c))
  exact Finset.sum_congr rfl fun k _ => by rw [hb]

end Cert.GroupedProduct

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KernelSide.lean ====
/-
  The kernel's result is the grouped product.

  At a grid point the body stores eight [512, 128] column tiles into the [512, 1024] output block; tile `g`, at
  columns `g * 128 …`, is the matrix product of columns `g * 1024 …` of the [512, 8192] input block with slab `g`
  of the weights, into a zero accumulator. Each tile's payload is therefore the block's grouped product read
  through the tile's rectangle (`tile_entry`), so the block after the body is the grouped product of the two
  input blocks (`block_eq`). Point `t`'s input block is rows `512 t …` of the input, the weights are staged
  whole, and the output block is rows `512 t …` of the result; a row of the grouped product depends only on the
  same row of the input, so what point `t` writes back is block `t` of the whole array's grouped product
  (`flushed_eq`). The eight row blocks tile the result (`covered`), which hence ends as the grouped product of
  the argument arrays (`final`, `run`).
-/
import proofs.«124583_g34935263986399_cont_8to1_b_1924_8_alg».proof.Proof.Gen.KernelIdeal.Value
import proofs.«124583_g34935263986399_cont_8to1_b_1924_8_alg».proof.Proof.Spec
import proofs.«124583_g34935263986399_cont_8to1_b_1924_8_alg».proof.Proof.LibPlainDot
import Idealize.ShloMosaic.Lib.Pipeline.Value
import Idealize.ShloMosaic.Lib.ValueIdx

set_option maxRecDepth 16384

noncomputable section

open scoped BigOperators

namespace Cert.KernelIdeal.Grouped

open Cert.KernelIdeal Cert.KernelIdeal.Gen Cert.GroupedProduct
open Idealize.ShloMosaic Idealize.ShloMosaic.TcCoe Idealize.ShloMosaic.ValueIdx Idealize.SL.Sem
open Idealize.ShloMosaic.Pipeline (Dat)

/-! ## One tile -/

/-- Tile `g`'s payload at a local entry `z` is the block's grouped product at the tile's image of `z`: the
    product contracts columns `g * 1024 + k` of the block against slab `g`, and the image of `z` is column
    `g * 128 + z 1`, whose group is `g` and whose lane is `z 1`. The offsets are parameters with their values
    given by equations, so that each of the eight printed tiles is this one at literals. -/
theorem tile_entry (g : ℕ) (hg : g < 8) (o0 o2 : ℕ) (h0 : o0 = g * 1024) (h2 : o2 = g * 128)
    (inb0 : ∀ a, (![0, o0] : Fin 2 → ℕ) a + S512x1024.size a ≤ S512x8192.size a)
    (inb1 : ∀ a, (![g, 0, 0] : Fin 3 → ℕ) a + S1x1024x128.size a ≤ S8x1024x128.size a)
    (inb2 : ∀ a, (![0, o2] : Fin 2 → ℕ) a + S512x128.size a ≤ S512x1024.size a)
    (x0 : Vec Ideal S512x8192 .f32) (x1 : Vec Ideal S8x1024x128 .f32) (z : S512x128.Idx) :
    matmul (F := Ideal) (φ₁ := .f32) (φ₂ := .f32) dot_S512x1024_S1024x128_S512x128_1_0_0_1_n_n none
        (View.ld x0 (Rect.unit (s := S512x8192) ![0, o0] S512x1024.size inb0))
        (shapeCast S1024x128 (View.ld x1 (Rect.unit (s := S8x1024x128) ![g, 0, 0] S1x1024x128.size inb1)) shapeCasts_S1x1024x128_S1024x128)
        (constant S512x128 .f32 0x00000000#32) z
      = groupedProduct x0 x1 ((Rect.unit (s := S512x1024) ![0, o2] S512x128.size inb2).emb z) := by
  subst h0 h2
  refine (Cert.PlainDot.matmul_zero_apply dot_S512x1024_S1024x128_S512x128_1_0_0_1_n_n rfl none _ _ z).trans ?_
  unfold groupedProduct
  refine Finset.sum_congr rfl fun k _ => ?_
  have hz0 : (z 0).val < 512 := (z 0).isLt
  have hz1 : (z 1).val < 128 := (z 1).isLt
  have hk : k.val < 1024 := k.isLt
  have el : View.ld x0 (Rect.unit (s := S512x8192) ![0, g * 1024] S512x1024.size inb0) (ix2 (z 0) k)
      = x0 (ix2 (((Rect.unit (s := S512x1024) ![0, g * 128] S512x128.size inb2).emb z) 0)
          (col (grp (((Rect.unit (s := S512x1024) ![0, g * 128] S512x128.size inb2).emb z) 1)) k)) := by
    show x0 _ = x0 _
    refine congrArg x0 (funext fun a => Fin.ext ?_)
    match a with
    | ⟨0, _⟩ => show 0 + 1 * (z 0).val = 0 + 1 * (z 0).val; rfl
    | ⟨1, _⟩ => show g * 1024 + 1 * k.val = (g * 128 + 1 * (z 1).val) / 128 * 1024 + k.val; omega
  have er : shapeCast S1024x128 (View.ld x1 (Rect.unit (s := S8x1024x128) ![g, 0, 0] S1x1024x128.size inb1)) shapeCasts_S1x1024x128_S1024x128 (ix2 k (z 1))
      = x1 (ix3 (grp (((Rect.unit (s := S512x1024) ![0, g * 128] S512x128.size inb2).emb z) 1)) k
          (lane (((Rect.unit (s := S512x1024) ![0, g * 128] S512x128.size inb2).emb z) 1))) := by
    rw [shapeCast_apply _ shapeCasts_S1x1024x128_S1024x128 (ix2 k (z 1)) (ix3 (⟨0, Nat.one_pos⟩ : Fin 1) k (z 1))
      (by rw [Shape.rowMajor_val_three, Shape.rowMajor_val_two]; show (0 * 1024 + k.val) * 128 + (z 1).val = k.val * 128 + (z 1).val; omega)]
    show x1 _ = x1 _
    refine congrArg x1 (funext fun a => Fin.ext ?_)
    match a with
    | ⟨0, _⟩ => show g + 1 * 0 = (g * 128 + 1 * (z 1).val) / 128; omega
    | ⟨1, _⟩ => show 0 + 1 * k.val = k.val; omega
    | ⟨2, _⟩ => show 0 + 1 * (z 1).val = (g * 128 + 1 * (z 1).val) % 128; omega
  rw [el, er]

/-! ## The block after the body -/

/-- The output block after the body is the grouped product of the two input blocks: every tile's payload is that
    function read through the tile's rectangle, and the tiles cover the block. -/
theorem block_eq (x0 : Vec Ideal S512x8192 .f32) (x1 : Vec Ideal S8x1024x128 .f32) :
    out0_2 (F := Ideal) x0 x1 = groupedProduct x0 x1 := by
  funext y
  unfold out0_2
  refine View.canon_apply_of_pieces (Val := Elt Ideal) (S := S512x1024) (e := .f32) (groupedProduct x0 x1) _ ?_ y (cover0_2 _ _ _ _ _ _ _ _ y)
  intro p hp z
  simp only [List.mem_cons, List.not_mem_nil, or_false] at hp
  rcases hp with rfl | rfl | rfl | rfl | rfl | rfl | rfl | rfl
  · exact tile_entry 7 (by norm_num) 7168 896 (by norm_num) (by norm_num) inb_S512x8192_S512x1024_0_7168
      inb_S8x1024x128_S1x1024x128_7_0_0 inb_S512x1024_S512x128_0_896 x0 x1 z
  · exact tile_entry 6 (by norm_num) 6144 768 (by norm_num) (by norm_num) inb_S512x8192_S512x1024_0_6144
      inb_S8x1024x128_S1x1024x128_6_0_0 inb_S512x1024_S512x128_0_768 x0 x1 z
  · exact tile_entry 5 (by norm_num) 5120 640 (by norm_num) (by norm_num) inb_S512x8192_S512x1024_0_5120
      inb_S8x1024x128_S1x1024x128_5_0_0 inb_S512x1024_S512x128_0_640 x0 x1 z
  · exact tile_entry 4 (by norm_num) 4096 512 (by norm_num) (by norm_num) inb_S512x8192_S512x1024_0_4096
      inb_S8x1024x128_S1x1024x128_4_0_0 inb_S512x1024_S512x128_0_512 x0 x1 z
  · exact tile_entry 3 (by norm_num) 3072 384 (by norm_num) (by norm_num) inb_S512x8192_S512x1024_0_3072
      inb_S8x1024x128_S1x1024x128_3_0_0 inb_S512x1024_S512x128_0_384 x0 x1 z
  · exact tile_entry 2 (by norm_num) 2048 256 (by norm_num) (by norm_num) inb_S512x8192_S512x1024_0_2048
      inb_S8x1024x128_S1x1024x128_2_0_0 inb_S512x1024_S512x128_0_256 x0 x1 z
  · exact tile_entry 1 (by norm_num) 1024 128 (by norm_num) (by norm_num) inb_S512x8192_S512x1024_0_1024
      inb_S8x1024x128_S1x1024x128_1_0_0 inb_S512x1024_S512x128_0_128 x0 x1 z
  · exact tile_entry 0 (by norm_num) 0 0 (by norm_num) (by norm_num) inb_S512x8192_S512x1024_0_0
      inb_S8x1024x128_S1x1024x128_0_0_0 inb_S512x1024_S512x128_0_0 x0 x1 z

/-! ## From blocks to the array -/

variable (m : (ℓ : Loc nD τ sig) → Buf (Elt Ideal) ℓ) (ρ : Dev nD → PrngReg)

/-- The printed index maps over the eight grid points: the input and the output move down one row block per
    point, the weights stay. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- A [512, 8192] block that is rows `512 T …` of an array, with the weights whole: its grouped product at `j` is
    the array's at the entry `512 T` rows further down. -/
theorem block_of_array (X0 : S4096x8192.Idx → EReal) (X1 b1 : S8x1024x128.Idx → EReal) (b0 : S512x8192.Idx → EReal)
    (T : ℕ) (hT : T < 8)
    (h0 : ∀ (y : S512x8192.Idx) (Y : S4096x8192.Idx), (Y 0).val = T * 512 + (y 0).val → (Y 1).val = (y 1).val → b0 y = X0 Y)
    (h1 : b1 = X1) (j : S512x1024.Idx) (J : S4096x1024.Idx) (hJ0 : (J 0).val = T * 512 + (j 0).val) (hJ1 : (J 1).val = (j 1).val) :
    groupedProduct b0 b1 j = groupedProduct X0 X1 J := by
  subst h1
  obtain ⟨p, q, rfl⟩ : ∃ (p : Fin 512) (q : Fin 1024), j = ix2 p q := ⟨j 0, j 1, eq_ix2 j⟩
  have hp : p.val < 512 := p.isLt
  have hJ : J = ix2 (⟨T * 512 + p.val, by omega⟩ : Fin 4096) q := by
    funext a; apply Fin.ext
    match a with
    | ⟨0, _⟩ => exact hJ0
    | ⟨1, _⟩ => exact hJ1
  rw [hJ]
  exact groupedProduct_rows X0 b0 b1 (fun r => ⟨T * 512 + r.val, by have := r.isLt; omega⟩)
    (fun r c => h0 _ _ rfl rfl) p q

/-- What point `t` writes back is block `t` of the grouped product of the argument arrays. -/
theorem flushed_eq (c : Dev nD) (t : Fin cfg0.N) :
    (dats m 0 c).flushed 2 t
      = ((cfg0.win 2).blk t).view.read (Elt Ideal) (groupedProduct (V m c main_arg0) (V m c main_arg1)) := by
  rw [Cert.KernelIdeal.Value.flushed2, block_eq]
  obtain ⟨e0, e1, e2, e3, e4, e5, e6⟩ := idx_facts t
  have hN : t.val < 8 := lt_of_lt_of_eq t.isLt N_0
  funext j
  show groupedProduct (iblk m c 0 t) (iblk m c 1 t) j
    = groupedProduct (V m c main_arg0) (V m c main_arg1) (((cfg0.win 2).blk t).view.emb j)
  refine block_of_array (V m c main_arg0) (V m c main_arg1) (iblk m c 1 t) (iblk m c 0 t) t.val hN ?_ ?_ j _ ?_ ?_
  · intro y Y hY0 hY1
    show V m c main_arg0 (((cfg0.win 0).blk t).view.emb y) = V m c main_arg0 Y
    refine congrArg _ (funext fun a => Fin.ext ?_)
    match a with
    | ⟨0, _⟩ => show win0_0.index t (0 : Fin 2) * 512 + 1 * (y 0).val = (Y 0).val; omega
    | ⟨1, _⟩ => show win0_0.index t (1 : Fin 2) * 8192 + 1 * (y 1).val = (Y 1).val; omega
  · funext y
    show V m c main_arg1 (((cfg0.win 1).blk t).view.emb y) = V m c main_arg1 y
    refine congrArg _ (funext fun a => Fin.ext ?_)
    match a with
    | ⟨0, _⟩ => show win0_1.index t (0 : Fin 3) * 8 + 1 * (y 0).val = (y 0).val; omega
    | ⟨1, _⟩ => show win0_1.index t (1 : Fin 3) * 1024 + 1 * (y 1).val = (y 1).val; omega
    | ⟨2, _⟩ => show win0_1.index t (2 : Fin 3) * 128 + 1 * (y 2).val = (y 2).val; omega
  · show win0_2.index t (0 : Fin 2) * 512 + 1 * (j 0).val = t.val * 512 + (j 0).val; omega
  · show win0_2.index t (1 : Fin 2) * 1024 + 1 * (j 1).val = (j 1).val; omega

/-- An index of the result is in point `t`'s block iff each coordinate is in the block's range on its axis. -/
theorem mem_blk (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every entry of the result lies in some point's block: row `r` in that of point `r / 512`. -/
theorem covered (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_2 _, ?_⟩
  obtain ⟨e0, e1, e2, e3, e4, e5, e6⟩ := idx_facts ⟨(i 0).val / 512, by rw [hN]; omega⟩
  rw [mem_blk]
  intro a
  match a with
  | ⟨0, _⟩ =>
    show win0_2.index ⟨(i 0).val / 512, _⟩ (0 : Fin 2) * 512 ≤ (i 0).val
      ∧ (i 0).val < win0_2.index ⟨(i 0).val / 512, _⟩ (0 : Fin 2) * 512 + 512
    rw [e5]; show (i 0).val / 512 * 512 ≤ (i 0).val ∧ (i 0).val < (i 0).val / 512 * 512 + 512; omega
  | ⟨1, _⟩ =>
    show win0_2.index ⟨(i 0).val / 512, _⟩ (1 : Fin 2) * 1024 ≤ (i 1).val
      ∧ (i 1).val < win0_2.index ⟨(i 0).val / 512, _⟩ (1 : Fin 2) * 1024 + 1024
    rw [e6]; omega

/-- The result array after the run is the grouped product of the argument arrays. -/
theorem final (c : Dev nD) :
    (dats m 0 c).arrAt 2 cfg0.N
      = groupedProduct (m ((c : Thread nD τ).loc main_arg0)) (m ((c : Thread nD τ).loc main_arg1)) :=
  (dats m 0 c).arrAt_eq_of_cover 2 (groupedProduct (V m c main_arg0) (V m c main_arg1))
    (fun t _ => flushed_eq m c t) covered

/-- The run: the result ends as the grouped product of the arguments, which are unchanged. -/
theorem run : θ_run defs (onTc (τ := τ) (main (F := Ideal))) ⟨m, fun _ => 0, ρ⟩ fun r => ∀ c : Dev nD,
      r.2.mem ((c : Thread nD τ).loc main_v0)
        = groupedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Grouped

end
-- ==== Proof.RefSide.lean ====
/-
  The reference's result is the grouped product.

  The reference reshapes the input [4096, 8192] to [4096, 8, 1024], and for each group `g` slices out
  [4096, 1, 1024] at `(0, g, 0)`, drops the unit axis, slices the weight at `(g, 0, 0)`, drops its unit axis,
  and multiplies: entry `(r, d)` of that product is `∑ k, x (r, g * 1024 + k) * w (g, k, d)`, because the
  row-major position of `(r, g, k)` in [4096, 8, 1024] is that of `(r, g * 1024 + k)` in [4096, 8192]. The eight
  products are then joined along the columns: column `c` of the join is column `c % 128` of piece `c / 128`.
-/
import proofs.«124583_g34935263986399_cont_8to1_b_1924_8_alg».proof.Proof.Gen.ReferenceIdeal.Read
import proofs.«124583_g34935263986399_cont_8to1_b_1924_8_alg».proof.Proof.Spec
import proofs.«124583_g34935263986399_cont_8to1_b_1924_8_alg».proof.Proof.LibPlainDot
import Idealize.ShloMosaic.Lib.Pipeline.Value
import Idealize.ShloMosaic.Lib.ValueIdx

noncomputable section

open scoped BigOperators

namespace Cert.ReferenceIdeal.Grouped

open Cert.ReferenceIdeal Cert.ReferenceIdeal.Gen Cert.ReferenceIdeal.Read Cert.GroupedProduct
open Idealize.ShloMosaic Idealize.ShloMosaic.ValueIdx

/-- Group `g`'s left operand — the input reshaped to [4096, 8, 1024], sliced at `(0, g, 0)`, its unit axis dropped —
    at row `p`, column `k` is the input at `(p, g * 1024 + k)`: both reshapes keep row-major positions. -/
theorem lhs_entry (g : ℕ) (hg : g < 8) (x0 : S4096x8192.Idx → EReal)
    (hs0 : S4096x8x1024.Slices ![0, g, 0] S4096x1x1024) (p : Fin 4096) (k : Fin 1024) :
    shapeCast S4096x1024 (extractStridedSlice S4096x1x1024 ![0, g, 0] (shapeCast S4096x8x1024 x0 shapeCasts_S4096x8192_S4096x8x1024) hs0) shapeCasts_S4096x1x1024_S4096x1024 (ix2 p k)
      = x0 (ix2 p (col ⟨g, hg⟩ k)) := by
  have hp : p.val < 4096 := p.isLt
  have hk : k.val < 1024 := k.isLt
  refine (shapeCast_apply _ shapeCasts_S4096x1x1024_S4096x1024 (ix2 p k) (ix3 p (⟨0, Nat.one_pos⟩ : Fin 1) k)
    (by rw [Shape.rowMajor_val_three, Shape.rowMajor_val_two]; show (p.val * 1 + 0) * 1024 + k.val = p.val * 1024 + k.val; omega)).trans ?_
  refine (extractStridedSlice_apply ![0, g, 0] _ hs0 (ix3 p (⟨0, Nat.one_pos⟩ : Fin 1) k) (ix3 p (⟨g, hg⟩ : Fin 8) k)
    (fun a => match a with
      | ⟨0, _⟩ => by show p.val = 0 + p.val; omega
      | ⟨1, _⟩ => by show g = g + 0; omega
      | ⟨2, _⟩ => by show k.val = 0 + k.val; omega)).trans ?_
  exact shapeCast_apply x0 shapeCasts_S4096x8192_S4096x8x1024 (ix3 p (⟨g, hg⟩ : Fin 8) k) (ix2 p (col ⟨g, hg⟩ k))
    (by rw [Shape.rowMajor_val_two, Shape.rowMajor_val_three]; show p.val * 8192 + (g * 1024 + k.val) = (p.val * 8 + g) * 1024 + k.val; omega)

/-- Group `g`'s right operand — the weights sliced at `(g, 0, 0)`, the unit axis dropped — at row `k`, column `q` is
    the weights at `(g, k, q)`. -/
theorem rhs_entry (g : ℕ) (hg : g < 8) (x1 : S8x1024x128.Idx → EReal)
    (hs1 : S8x1024x128.Slices ![g, 0, 0] S1x1024x128) (k : Fin 1024) (q : Fin 128) :
    shapeCast S1024x128 (extractStridedSlice S1x1024x128 ![g, 0, 0] x1 hs1) shapeCasts_S1x1024x128_S1024x128 (ix2 k q)
      = x1 (ix3 (⟨g, hg⟩ : Fin 8) k q) := by
  have hk : k.val < 1024 := k.isLt
  have hq : q.val < 128 := q.isLt
  refine (shapeCast_apply _ shapeCasts_S1x1024x128_S1024x128 (ix2 k q) (ix3 (⟨0, Nat.one_pos⟩ : Fin 1) k q)
    (by rw [Shape.rowMajor_val_three, Shape.rowMajor_val_two]; show (0 * 1024 + k.val) * 128 + q.val = k.val * 128 + q.val; omega)).trans ?_
  exact extractStridedSlice_apply ![g, 0, 0] x1 hs1 (ix3 (⟨0, Nat.one_pos⟩ : Fin 1) k q) (ix3 (⟨g, hg⟩ : Fin 8) k q)
    (fun a => match a with
      | ⟨0, _⟩ => by show g = g + 0; omega
      | ⟨1, _⟩ => by show k.val = 0 + k.val; omega
      | ⟨2, _⟩ => by show q.val = 0 + q.val; omega)

/-- One group's slice–reshape–product chain at an entry: the group's product of the spec. The offsets are given
    by the group's number, so each of the eight printed chains is this one at a literal. -/
theorem group_chain (g : ℕ) (hg : g < 8) (x0 : S4096x8192.Idx → EReal) (x1 : S8x1024x128.Idx → EReal)
    (hs0 : S4096x8x1024.Slices ![0, g, 0] S4096x1x1024) (hs1 : S8x1024x128.Slices ![g, 0, 0] S1x1024x128) (i : S4096x128.Idx) :
    Host.dotGeneral (F := Ideal) (φ₁ := .f32) (φ₂ := .f32) dot_S4096x1024_S1024x128_S4096x128_1_0_0_1_n_n none
        (shapeCast S4096x1024 (extractStridedSlice S4096x1x1024 ![0, g, 0] (shapeCast S4096x8x1024 x0 shapeCasts_S4096x8192_S4096x8x1024) hs0) shapeCasts_S4096x1x1024_S4096x1024)
        (shapeCast S1024x128 (extractStridedSlice S1x1024x128 ![g, 0, 0] x1 hs1) shapeCasts_S1x1024x128_S1024x128) i
      = groupEntry x0 x1 ⟨g, hg⟩ i := by
  obtain ⟨p, q, rfl⟩ : ∃ (p : Fin 4096) (q : Fin 128), i = ix2 p q := ⟨i 0, i 1, eq_ix2 i⟩
  refine (Cert.PlainDot.dotGeneral_apply dot_S4096x1024_S1024x128_S4096x128_1_0_0_1_n_n rfl none .single _ _ (ix2 p q)).trans ?_
  exact Finset.sum_congr rfl fun k _ => congrArg₂ (· * ·) (lhs_entry g hg x0 hs0 p k) (rhs_entry g hg x1 hs1 k q)

/-- The eight products the reference joins, as a family over the group. -/
def pieces (x0 : S4096x8192.Idx → EReal) (x1 : S8x1024x128.Idx → EReal) : Fin 8 → (S4096x128.Idx → EReal) :=
  ![val_main_v5 (F := Ideal) x0 x1, val_main_v10 (F := Ideal) x0 x1, val_main_v15 (F := Ideal) x0 x1, val_main_v20 (F := Ideal) x0 x1,
    val_main_v25 (F := Ideal) x0 x1, val_main_v30 (F := Ideal) x0 x1, val_main_v35 (F := Ideal) x0 x1, val_main_v40 (F := Ideal) x0 x1]

/-- Piece `n` is group `n`'s product. -/
theorem pieces_eq (x0 : S4096x8192.Idx → EReal) (x1 : S8x1024x128.Idx → EReal) (n : Fin 8) :
    pieces x0 x1 n = groupEntry x0 x1 n := by
  funext i
  fin_cases n
  · exact group_chain 0 (by norm_num) x0 x1 _ _ i
  · exact group_chain 1 (by norm_num) x0 x1 _ _ i
  · exact group_chain 2 (by norm_num) x0 x1 _ _ i
  · exact group_chain 3 (by norm_num) x0 x1 _ _ i
  · exact group_chain 4 (by norm_num) x0 x1 _ _ i
  · exact group_chain 5 (by norm_num) x0 x1 _ _ i
  · exact group_chain 6 (by norm_num) x0 x1 _ _ i
  · exact group_chain 7 (by norm_num) x0 x1 _ _ i

/-- The reference's last stage, the join of the eight products along the columns, is the grouped product. -/
theorem result_eq (x0 : S4096x8192.Idx → EReal) (x1 : S8x1024x128.Idx → EReal) :
    val_main_v41 (F := Ideal) x0 x1 = groupedProduct x0 x1 := by
  funext j
  show concatenate S4096x1024 1 (List.ofFn fun n : Fin 8 => (⟨S4096x128, pieces x0 x1 n⟩ : (s : Shape) × (s.Idx → EReal)))
    concatenates_S4096x128_S4096x128_S4096x128_S4096x128_S4096x128_S4096x128_S4096x128_S4096x128_S4096x1024_d1 j = _
  refine (concatenate_ofFn_apply (1 : Fin S4096x1024.rank) (pieces x0 x1) _ rfl 128 rfl j (grp (j 1)) rfl (ix2 (j 0) (lane (j 1))) rfl
    (fun b hb => match b, hb with
      | ⟨0, _⟩, _ => rfl
      | ⟨1, _⟩, hb => absurd rfl hb)).trans ?_
  rw [pieces_eq]
  rfl

end Cert.ReferenceIdeal.Grouped

end
-- ==== Proof.lean ====
/-
  The proof of `Cert.Claim`: the kernel and its reference compute the same grouped matrix product.

  The input [4096, 8192] is read as 8 groups of 1024 columns, the weights are 8 matrices [1024, 128], and column
  `c` of the result [4096, 1024] is lane `c % 128` of group `c / 128`'s product (Proof/Spec.lean,
  `groupedProduct`). The kernel computes it one 512-row block per grid point, eight column tiles per block, each
  a matrix product into a zero accumulator (Proof/KernelSide.lean); the reference reshapes, slices out each group,
  multiplies and joins the eight products along the columns (Proof/RefSide.lean). At the extended reals both are
  the same sums of products, term by term, so no law of arithmetic and no finiteness of the inputs is used.
  The three frames are the generated ones (the reference's is its generated run with the result dropped), and the
  idealization rewrote nothing, so `preserves` is `True`.
-/
import proofs.«124583_g34935263986399_cont_8to1_b_1924_8_alg».proof.Defs
import proofs.«124583_g34935263986399_cont_8to1_b_1924_8_alg».proof.Proof.Gen.Kernel
import proofs.«124583_g34935263986399_cont_8to1_b_1924_8_alg».proof.Proof.Gen.Kernel.Skeleton
import proofs.«124583_g34935263986399_cont_8to1_b_1924_8_alg».proof.Proof.Gen.Kernel.Launch
import proofs.«124583_g34935263986399_cont_8to1_b_1924_8_alg».proof.Proof.Gen.Kernel.Points
import proofs.«124583_g34935263986399_cont_8to1_b_1924_8_alg».proof.Proof.Gen.Kernel.Frame
import proofs.«124583_g34935263986399_cont_8to1_b_1924_8_alg».proof.Proof.Gen.KernelIdeal
import proofs.«124583_g34935263986399_cont_8to1_b_1924_8_alg».proof.Proof.Gen.KernelIdeal.Skeleton
import proofs.«124583_g34935263986399_cont_8to1_b_1924_8_alg».proof.Proof.Gen.KernelIdeal.Launch
import proofs.«124583_g34935263986399_cont_8to1_b_1924_8_alg».proof.Proof.Gen.KernelIdeal.Points
import proofs.«124583_g34935263986399_cont_8to1_b_1924_8_alg».proof.Proof.Gen.KernelIdeal.Frame
import proofs.«124583_g34935263986399_cont_8to1_b_1924_8_alg».proof.Proof.Gen.ReferenceIdeal
import proofs.«124583_g34935263986399_cont_8to1_b_1924_8_alg».proof.Proof.Gen.Pre_finite_inputs
import proofs.«124583_g34935263986399_cont_8to1_b_1924_8_alg».proof.Proof.Gen.KernelIdeal.Value
import proofs.«124583_g34935263986399_cont_8to1_b_1924_8_alg».proof.Proof.Gen.ReferenceIdeal.Run
import proofs.«124583_g34935263986399_cont_8to1_b_1924_8_alg».proof.Proof.Gen.ReferenceIdeal.Read
import proofs.«124583_g34935263986399_cont_8to1_b_1924_8_alg».proof.Proof.KernelSide
import proofs.«124583_g34935263986399_cont_8to1_b_1924_8_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the grouped product of the arguments, and the arguments agree. -/
theorem algebraic : Cert.algebraic_KernelIdeal_ReferenceIdeal := by
  intro m ρ m' ρ' _ hagree
  refine ⟨fun c => Cert.GroupedProduct.groupedProduct
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Grouped.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.Grouped.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
